-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S2042 : Shape := ⟨1, ![2042]⟩
abbrev S_ : Shape := ⟨0, ![]⟩
abbrev S2042x1 : Shape := ⟨2, ![2042, 1]⟩
abbrev S14 : Shape := ⟨1, ![14]⟩
abbrev S1x14 : Shape := ⟨2, ![1, 14]⟩
abbrev S2042x14 : Shape := ⟨2, ![2042, 14]⟩
abbrev S2042x14x1 : Shape := ⟨3, ![2042, 14, 1]⟩
abbrev S8192x2042x14 : Shape := ⟨3, ![8192, 2042, 14]⟩
abbrev S28588 : Shape := ⟨1, ![28588]⟩
abbrev S8192x28588 : Shape := ⟨2, ![8192, 28588]⟩
abbrev S28588x1 : Shape := ⟨2, ![28588, 1]⟩
abbrev S4096 : Shape := ⟨1, ![4096]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2042, .i32⟩
  | .hbm, ⟨2, _⟩ => ⟨S_, .i32⟩
  | .hbm, ⟨3, _⟩ => ⟨S2042, .i32⟩
  | .hbm, ⟨4, _⟩ => ⟨S2042, .i32⟩
  | .hbm, ⟨5, _⟩ => ⟨S_, .i32⟩
  | .hbm, ⟨6, _⟩ => ⟨S2042, .i32⟩
  | .hbm, ⟨7, _⟩ => ⟨S2042, .i32⟩
  | .hbm, ⟨8, _⟩ => ⟨S2042x1, .i32⟩
  | .hbm, ⟨9, _⟩ => ⟨S14, .i32⟩
  | .hbm, ⟨10, _⟩ => ⟨S1x14, .i32⟩
  | .hbm, ⟨11, _⟩ => ⟨S2042x14, .i32⟩
  | .hbm, ⟨12, _⟩ => ⟨S2042x14, .i32⟩
  | .hbm, ⟨13, _⟩ => ⟨S2042x14, .i32⟩
  | .hbm, ⟨14, _⟩ => ⟨S_, .i32⟩
  | .hbm, ⟨15, _⟩ => ⟨S2042x14, .i32⟩
  | .hbm, ⟨16, _⟩ => ⟨S2042x14, .i1⟩
  | .hbm, ⟨17, _⟩ => ⟨S_, .i32⟩
  | .hbm, ⟨18, _⟩ => ⟨S2042x14, .i32⟩
  | .hbm, ⟨19, _⟩ => ⟨S2042x14, .i32⟩
  | .hbm, ⟨20, _⟩ => ⟨S2042x14, .i32⟩
  | .hbm, ⟨21, _⟩ => ⟨S2042x14x1, .i32⟩
  | .hbm, ⟨22, _⟩ => ⟨S8192x2042x14, .f32⟩
  | .hbm, ⟨23, _⟩ => ⟨S28588, .i32⟩
  | .hbm, ⟨24, _⟩ => ⟨S_, .f32⟩
  | .hbm, ⟨25, _⟩ => ⟨S8192x4096, .f32⟩
  | .hbm, ⟨26, _⟩ => ⟨S8192x28588, .f32⟩
  | .hbm, ⟨27, _⟩ => ⟨S_, .i32⟩
  | .hbm, ⟨28, _⟩ => ⟨S28588, .i32⟩
  | .hbm, ⟨29, _⟩ => ⟨S28588, .i1⟩
  | .hbm, ⟨30, _⟩ => ⟨S_, .i32⟩
  | .hbm, ⟨31, _⟩ => ⟨S28588, .i32⟩
  | .hbm, ⟨32, _⟩ => ⟨S28588, .i32⟩
  | .hbm, ⟨33, _⟩ => ⟨S28588, .i32⟩
  | .hbm, ⟨34, _⟩ => ⟨S28588x1, .i32⟩
  | .hbm, ⟨35, _⟩ => ⟨S8192x4096, .f32⟩
  | .hbm, ⟨36, _⟩ => ⟨S_, .f32⟩
  | .hbm, ⟨37, _⟩ => ⟨S4096, .f32⟩
  | .hbm, ⟨38, _⟩ => ⟨S_, .i32⟩
  | .hbm, ⟨39, _⟩ => ⟨S28588, .i32⟩
  | .hbm, ⟨40, _⟩ => ⟨S28588, .i1⟩
  | .hbm, ⟨41, _⟩ => ⟨S_, .i32⟩
  | .hbm, ⟨42, _⟩ => ⟨S28588, .i32⟩
  | .hbm, ⟨43, _⟩ => ⟨S28588, .i32⟩
  | .hbm, ⟨44, _⟩ => ⟨S28588, .i32⟩
  | .hbm, ⟨45, _⟩ => ⟨S28588x1, .i32⟩
  | .hbm, ⟨46, _⟩ => ⟨S_, .f32⟩
  | .hbm, ⟨47, _⟩ => ⟨S28588, .f32⟩
  | .hbm, ⟨48, _⟩ => ⟨S4096, .f32⟩
  | .hbm, ⟨49, _⟩ => ⟨S1x4096, .f32⟩
  | .hbm, ⟨50, _⟩ => ⟨S8192x4096, .f32⟩
  | .hbm, ⟨51, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S_S2042 : S_.BroadcastsInDim S2042 (![] : Fin 0 → Fin S2042.rank)
  bcast_S2042_S2042x1_0 : S2042.BroadcastsInDim S2042x1 (![0] : Fin 1 → Fin S2042x1.rank)
  bcast_S14_S1x14_1 : S14.BroadcastsInDim S1x14 (![1] : Fin 1 → Fin S1x14.rank)
  bcast_S2042x1_S2042x14_0_1 : S2042x1.BroadcastsInDim S2042x14 (![0, 1] : Fin 2 → Fin S2042x14.rank)
  bcast_S1x14_S2042x14_0_1 : S1x14.BroadcastsInDim S2042x14 (![0, 1] : Fin 2 → Fin S2042x14.rank)
  bcast_S_S2042x14 : S_.BroadcastsInDim S2042x14 (![] : Fin 0 → Fin S2042x14.rank)
  bcast_S2042x14_S2042x14x1_0_1 : S2042x14.BroadcastsInDim S2042x14x1 (![0, 1] : Fin 2 → Fin S2042x14x1.rank)
  shapeCasts_S2042x14_S28588 : S2042x14.ShapeCasts S28588
  bcast_S_S8192x4096 : S_.BroadcastsInDim S8192x4096 (![] : Fin 0 → Fin S8192x4096.rank)
  shapeCasts_S8192x2042x14_S8192x28588 : S8192x2042x14.ShapeCasts S8192x28588
  bcast_S_S28588 : S_.BroadcastsInDim S28588 (![] : Fin 0 → Fin S28588.rank)
  bcast_S28588_S28588x1_0 : S28588.BroadcastsInDim S28588x1 (![0] : Fin 1 → Fin S28588x1.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S8192x4096_S2042x14x1_S8192x2042x14_0_1_n_n_1_2_81921_wf : GatherDims.WF S8192x4096 S2042x14x1 S8192x2042x14 [0] [1] [] [1] [] 2 ![8192, 1]
  scatter_S8192x4096_S28588x1_S8192x28588_0_1_1_1_wf : ScatterDims.WF S8192x4096 S28588x1 S8192x28588 [0] [1] [1] 1
  scatter_S4096_S28588x1_S28588_n_0_0_1_wf : ScatterDims.WF S4096 S28588x1 S28588 [] [0] [0] 1

variable [Facts₀]

def gather_S8192x4096_S2042x14x1_S8192x2042x14_0_1_n_n_1_2_81921 : GatherDims S8192x4096 S2042x14x1 S8192x2042x14 where
  offsetDims := [0]
  collapsedSliceDims := [1]
  operandBatchingDims := []
  startIndicesBatchingDims := []
  startIndexMap := [1]
  indexVectorDim := 2
  sliceSizes := ![8192, 1]
  wf := gather_S8192x4096_S2042x14x1_S8192x2042x14_0_1_n_n_1_2_81921_wf
def scatter_S8192x4096_S28588x1_S8192x28588_0_1_1_1 : ScatterDims S8192x4096 S28588x1 S8192x28588 where
  updateWindowDims := [0]
  insertedWindowDims := [1]
  scatterDimsToOperandDims := [1]
  indexVectorDim := 1
  wf := scatter_S8192x4096_S28588x1_S8192x28588_0_1_1_1_wf
def scatter_S4096_S28588x1_S28588_n_0_0_1 : ScatterDims S4096 S28588x1 S28588 where
  updateWindowDims := []
  insertedWindowDims := [0]
  scatterDimsToOperandDims := [0]
  indexVectorDim := 1
  wf := scatter_S4096_S28588x1_S28588_n_0_0_1_wf

class Facts : Prop extends Facts₀ where

variable [Facts]
-- ==== Proof.KernelCopy.lean ====
/-
  The kernel copies its input: each of the sixteen grid points stores the block it loaded, unchanged, into the
  output window's block with the same block index, and the sixteen row bands of 512 rows tile the 8192 rows. So
  after the run the output array is the input array, index by index.
-/
import proofs.«421651_j72885595013444_3_alg».proof.Proof.Gen.KernelIdeal.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The input array as the region finds it, at its literal type. -/
abbrev xarr (c : Dev nD) : S8192x4096.Idx → Elt F .f32 := V m c main_arg0

/-- The one store's rectangle starts at the block's origin. -/
theorem origin : (![0, 0] : Fin 2 → Nat) = fun _ => 0 := funext fun a => by fin_cases a <;> rfl

/-- At every grid point the input window and the output window sit at the same block index. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every row band is some grid point's output block. -/
theorem band_onto : ∀ q0 : Fin 16, ∃ t : Fin cfg0.N, win0_1.index t = ![q0.val, 0] :=
  (by decide +kernel : ∀ q0 : Fin 16, ∃ t : Fin grid0.N, win0_1.index t = ![q0.val, 0])

/-- What grid point `t` writes back is block `t` of the input array. -/
theorem flushed_eq (c : Dev nD) (t : Fin cfg0.N) :
    (dats m 0 c).flushed 1 t = ((cfg0.win 1).blk t).view.read (Elt F) (xarr m c) := by
  rw [Value.flushed1]
  unfold out0_1
  rw [View.canon_unit_zero origin]
  simp only [View.ld_unit_zero (S := S512x4096) origin]
  obtain ⟨e0, e1⟩ := same_block t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index lies in point `t`'s output block iff each coordinate lies in the block's range on its axis. -/
theorem mem_band (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Row `r` lies in the band of the point whose block index is `r / 512`: the bands cover the array. -/
theorem bands_cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := band_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_band]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The output array after the run is the input array. -/
theorem final (c : Dev nD) : (dats m 0 c).arrAt 1 cfg0.N = xarr m c :=
  (dats m 0 c).arrAt_eq_of_cover 1 (xarr m c) (fun t _ => flushed_eq m c t) bands_cover

/-- The run, read: the result array ends equal to the argument array, which is unchanged. -/
theorem run : θ_run defs (onTc (τ := τ) (main (F := F))) ⟨m, fun _ => 0, ρ⟩ fun r => ∀ c : Dev nD,
      r.2.mem ((c : Thread nD τ).loc main_v0) = xarr m c
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CopyValue

end
-- ==== Proof.RefIndex.lean ====
/-
  The reference's index tables, read as numbers. Window `s` (of 2042) starts at column `2 s` and has 14 columns, so the
  table entry at `(s, e)` is the column `2 s + e`, and the flattened table's entry at position `q` is the column
  `col q = 2 (q / 14) + q % 14`. Every column is below 4096 and non-negative, so the "negative index wraps around"
  select that precedes the gather and each scatter leaves the table as it is.
-/
import proofs.«421651_j72885595013444_3_alg».proof.Proof.Gen.ReferenceIdeal.Read
import Idealize.ShloMosaic.Lib.StableHlo.Predicate
import Idealize.ShloMosaic.Lib.ValueIdx

noncomputable section

namespace Cert.ReferenceIdeal.Windows

open Cert.ReferenceIdeal Cert.ReferenceIdeal.Read Idealize.ShloMosaic Idealize.ShloMosaic.ValueIdx
open Idealize.ShloMosaic.StableHlo.Predicate

variable {F : FTy → Type} [FloatOps F]

/-- The column that position `q` of the flattened window table names. -/
def col (q : ℕ) : ℕ := 2 * (q / 14) + q % 14

theorem col_lt {q : ℕ} (hq : q < 28588) : col q < 4096 := by unfold col; omega

/-- A small word is not negative. -/
theorem not_slt_zero (n : ℕ) (hn : n < 2 ^ 31) : IntOp.cmpi .slt (BitVec.ofNat 32 n) 0#32 = 0#1 := by
  apply eq_zero_of_ne_one
  rw [slt_iff_toNat (by simp only [BitVec.toNat_ofNat]; omega) (by decide)]
  simp

/-- The window table at `(s, e)` is the column `2 s + e`. -/
theorem table_word (i : S2042x14.Idx) : val_main_v10 (F := F) i = BitVec.ofNat 32 (2 * (i 0).val + (i 1).val) := by
  rw [val_main_v10_apply, val_main_v8_apply, val_main_v5_apply, val_main_v4_apply, val_main_v3_apply, val_main_c_0_apply,
    val_main_v2_apply, val_main_v1_apply, val_main_c_apply, val_main_v0_apply, val_main_v9_apply, val_main_v7_apply,
    val_main_v6_apply]
  show (0#32 + 2#32 * BitVec.ofNat 32 (i 0).val) + BitVec.ofNat 32 (i 1).val = _
  apply BitVec.eq_of_toNat_eq
  have h0 := idx2_lt0 i
  have h1 := idx2_lt1 i
  simp only [BitVec.toNat_add, BitVec.toNat_mul, BitVec.toNat_ofNat]
  omega

/-- The table the gather reads (after the wrap-around select) is the window table. -/
theorem gather_word (k : S2042x14x1.Idx) :
    val_main_v16 (F := F) k = BitVec.ofNat 32 (2 * (k 0).val + (k 1).val) := by
  have h0 : (k 0).val < 2042 := (k 0).isLt
  have h1 : (k 1).val < 14 := (k 1).isLt
  rw [val_main_v16_apply, val_main_v15_apply, val_main_v12_apply, val_main_v11_apply, val_main_c_1_apply, table_word,
    not_slt_zero _ (by show 2 * (k 0).val + (k 1).val < 2 ^ 31; omega), select_zero]

/-- The flattened table at position `q` is the column `col q`. -/
theorem flat_word (q : S28588.Idx) : val_main_v18 (F := F) q = BitVec.ofNat 32 (col (q 0).val) := by
  rw [val_main_v18_apply, table_word]
  rfl

/-- The table the first scatter reads (after its wrap-around select) is the flattened table. -/
theorem sum_word (k : S28588x1.Idx) : val_main_v26 (F := F) k = BitVec.ofNat 32 (col (k 0).val) := by
  have h0 : (k 0).val < 28588 := (k 0).isLt
  have hc := col_lt h0
  rw [val_main_v26_apply, val_main_v25_apply, val_main_v22_apply, val_main_v21_apply, val_main_c_3_apply, flat_word,
    not_slt_zero _ (by show col (k 0).val < 2 ^ 31; omega), select_zero]

/-- The table the counting scatter reads (after its wrap-around select) is the flattened table too. -/
theorem count_word (k : S28588x1.Idx) : val_main_v34 (F := F) k = BitVec.ofNat 32 (col (k 0).val) := by
  have h0 : (k 0).val < 28588 := (k 0).isLt
  have hc := col_lt h0
  rw [val_main_v34_apply, val_main_v33_apply, val_main_v30_apply, val_main_v29_apply, val_main_c_6_apply, flat_word,
    not_slt_zero _ (by show col (k 0).val < 2 ^ 31; omega), select_zero]

/-- Read signed, a small word is its number. -/
theorem toInt_word (n : ℕ) (hn : n < 4096) : (BitVec.ofNat 32 n).toInt = (n : ℤ) :=
  toInt_ofNat_small n (by omega)

end Cert.ReferenceIdeal.Windows

end
-- ==== Proof.RefLands.lean ====
/-
  Where the reference's gather reads and where its two scatters land. With the window table read as numbers
  (`col q = 2 (q / 14) + q % 14`, always inside `[0, 4096)`):
    * the gather's result at `(b, s, e)` is the input at `(b, 2 s + e)`, so its reshape at `(b, q)` is the input at
      `(b, col q)`;
    * update `(b, q)` of the summing scatter lands at `(b, col q)`, and update `q` of the counting scatter at `col q`:
      no update is dropped, since no landing index leaves the operand.
  Each is read off the operation's dimension numbers axis by axis.
-/
import proofs.«421651_j72885595013444_3_alg».proof.Proof.RefIndex

noncomputable section

namespace Cert.ReferenceIdeal.Windows

open Cert.ReferenceIdeal Cert.ReferenceIdeal.Read Idealize.ShloMosaic Idealize.ShloMosaic.ValueIdx

variable {F : FTy → Type} [FloatOps F]

/-! ## The summing scatter -/

/-- The summing scatter's dimension numbers: the update's axis 0 is a window over the rows, its axis 1 runs over the
    scatter indices, each of which names a column. -/
abbrev dS := scatter_S8192x4096_S28588x1_S8192x28588_0_1_1_1

/-- Where update `(b, q)` of the summing scatter lands: row `b`, column `col q`. -/
def landSum (j : S8192x28588.Idx) : S8192x4096.Idx :=
  ix2 (j 0) ⟨col (j 1).val, col_lt (idx2_lt1 j)⟩

theorem sum_start0 {w : Nat} (j : S8192x28588.Idx) (idx : IVec S28588x1 w) : dS.start j idx 0 = 0 := by
  unfold ScatterDims.start
  rw [dif_neg (by decide)]

theorem sum_siIdx (j : S8192x28588.Idx) :
    dS.siIdx j ⟨List.idxOf (1 : Fin 2) dS.scatterDimsToOperandDims, List.idxOf_lt_length_iff.2 (List.mem_singleton.mpr rfl)⟩
      = ix2 ⟨(j 1).val, idx2_lt1 j⟩ ⟨0, Nat.one_pos⟩ := by
  funext b; refine Fin.ext ?_
  match b with
  | ⟨0, _⟩ => rfl
  | ⟨1, _⟩ => rfl

theorem sum_start1 (j : S8192x28588.Idx) : dS.start j (val_main_v26 (F := F)) 1 = (col (j 1).val : ℤ) := by
  unfold ScatterDims.start
  rw [dif_pos (show (1 : Fin 2) ∈ dS.scatterDimsToOperandDims from List.mem_singleton.mpr rfl), sum_siIdx, sum_word,
    toInt_word _ (col_lt (idx2_lt1 j))]

theorem sum_window0 (j : S8192x28588.Idx) : dS.window j 0 = (j 0).val := by
  unfold ScatterDims.window
  rw [dif_pos (by decide)]
  rfl

theorem sum_window1 (j : S8192x28588.Idx) : dS.window j 1 = 0 := by
  unfold ScatterDims.window
  rw [dif_neg (by decide)]

/-- Update `(b, q)` of the summing scatter lands inside the operand, at `(b, col q)`. -/
theorem sum_lands (j : S8192x28588.Idx) : dS.resultIdx? j (val_main_v26 (F := F)) = some (landSum j) := by
  have hj0 := idx2_lt0 j
  have hc := col_lt (idx2_lt1 j)
  unfold ScatterDims.resultIdx?
  rw [dif_pos (fun a => by
    match a with
    | ⟨0, _⟩ =>
      show 0 ≤ dS.start j (val_main_v26 (F := F)) 0 + (dS.window j 0 : ℤ)
        ∧ dS.start j (val_main_v26 (F := F)) 0 + (dS.window j 0 : ℤ) < (8192 : ℕ)
      rw [sum_start0, sum_window0]; omega
    | ⟨1, _⟩ =>
      show 0 ≤ dS.start j (val_main_v26 (F := F)) 1 + (dS.window j 1 : ℤ)
        ∧ dS.start j (val_main_v26 (F := F)) 1 + (dS.window j 1 : ℤ) < (4096 : ℕ)
      rw [sum_start1, sum_window1]; omega)]
  congr 1
  funext a; refine Fin.ext ?_
  match a with
  | ⟨0, _⟩ =>
    show (dS.start j (val_main_v26 (F := F)) 0 + (dS.window j 0 : ℤ)).toNat = (j 0).val
    rw [sum_start0, sum_window0]; omega
  | ⟨1, _⟩ =>
    show (dS.start j (val_main_v26 (F := F)) 1 + (dS.window j 1 : ℤ)).toNat = col (j 1).val
    rw [sum_start1, sum_window1]; omega

/-! ## The counting scatter -/

/-- The counting scatter's dimension numbers: no window axis, each scatter index names one entry. -/
abbrev dC := scatter_S4096_S28588x1_S28588_n_0_0_1

/-- Where update `q` of the counting scatter lands: entry `col q`. -/
def landCount (k : S28588.Idx) : S4096.Idx := ix1 ⟨col (k 0).val, col_lt (k 0).isLt⟩

theorem count_siIdx (k : S28588.Idx) :
    dC.siIdx k ⟨List.idxOf (0 : Fin 1) dC.scatterDimsToOperandDims, List.idxOf_lt_length_iff.2 (List.mem_singleton.mpr rfl)⟩
      = ix2 ⟨(k 0).val, (show (k 0).val < 28588 from (k 0).isLt)⟩ ⟨0, Nat.one_pos⟩ := by
  funext b; refine Fin.ext ?_
  match b with
  | ⟨0, _⟩ => rfl
  | ⟨1, _⟩ => rfl

theorem count_start (k : S28588.Idx) : dC.start k (val_main_v34 (F := F)) 0 = (col (k 0).val : ℤ) := by
  unfold ScatterDims.start
  rw [dif_pos (show (0 : Fin 1) ∈ dC.scatterDimsToOperandDims from List.mem_singleton.mpr rfl), count_siIdx, count_word,
    toInt_word _ (col_lt (k 0).isLt)]

theorem count_window (k : S28588.Idx) : dC.window k 0 = 0 := by
  unfold ScatterDims.window
  rw [dif_neg (by decide)]

/-- Update `q` of the counting scatter lands inside the operand, at `col q`. -/
theorem count_lands (k : S28588.Idx) : dC.resultIdx? k (val_main_v34 (F := F)) = some (landCount k) := by
  have hc := col_lt (k 0).isLt
  unfold ScatterDims.resultIdx?
  rw [dif_pos (fun a => by
    obtain rfl : a = 0 := Subsingleton.elim _ _
    show 0 ≤ dC.start k (val_main_v34 (F := F)) 0 + (dC.window k 0 : ℤ)
      ∧ dC.start k (val_main_v34 (F := F)) 0 + (dC.window k 0 : ℤ) < (4096 : ℕ)
    rw [count_start, count_window]; omega)]
  congr 1
  funext a; refine Fin.ext ?_
  obtain rfl : a = 0 := Subsingleton.elim _ _
  show (dC.start k (val_main_v34 (F := F)) 0 + (dC.window k 0 : ℤ)).toNat = col (k 0).val
  rw [count_start, count_window]; omega

/-! ## The gather -/

/-- The gather's dimension numbers: whole columns (offset axis 0, slice size 8192 × 1), the column named by the start
    index at `(s, e, 0)`. -/
abbrev dG := gather_S8192x4096_S2042x14x1_S8192x2042x14_0_1_n_n_1_2_81921

theorem gather_siIdx (j : S8192x2042x14.Idx) :
    dG.siIdx j ⟨List.idxOf (1 : Fin 2) dG.startIndexMap, List.idxOf_lt_length_iff.2 (List.mem_singleton.mpr rfl)⟩
      = ix3 ⟨(j 1).val, (show (j 1).val < 2042 from (j 1).isLt)⟩ ⟨(j 2).val, (show (j 2).val < 14 from (j 2).isLt)⟩
          ⟨0, Nat.one_pos⟩ := by
  funext b; refine Fin.ext ?_
  match b with
  | ⟨0, _⟩ => rfl
  | ⟨1, _⟩ => rfl
  | ⟨2, _⟩ => rfl

/-- The gathered windows at `(b, s, e)` hold the input at row `b`, column `2 s + e` (the clamp to the last column never
    bites). -/
theorem gather_apply (x0 : S8192x4096.Idx → Elt F .f32) (j : S8192x2042x14.Idx) :
    val_main_v17 (F := F) x0 j = x0 (ix2 (j 0) ⟨2 * (j 1).val + (j 2).val, by
      have h1 : (j 1).val < 2042 := (j 1).isLt
      have h2 : (j 2).val < 14 := (j 2).isLt
      omega⟩) := by
  have h1 : (j 1).val < 2042 := (j 1).isLt
  have h2 : (j 2).val < 14 := (j 2).isLt
  unfold val_main_v17 Host.gather
  congr 1
  funext a; refine Fin.ext ?_
  match a with
  | ⟨0, _⟩ =>
    show dG.start j (val_main_v16 (F := F)) 0 + dG.batchCoord j 0 + dG.offCoord j 0 = (j 0).val
    rw [GatherDims.batchCoord_eq_zero _ _ _ List.not_mem_nil]
    unfold GatherDims.start GatherDims.offCoord
    rw [dif_neg (by decide), dif_pos (by decide)]
    simp only [Nat.add_zero, Nat.zero_add]
    rfl
  | ⟨1, _⟩ =>
    show dG.start j (val_main_v16 (F := F)) 1 + dG.batchCoord j 1 + dG.offCoord j 1 = 2 * (j 1).val + (j 2).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ dG.startIndexMap from List.mem_singleton.mpr rfl), gather_siIdx, gather_word,
      toInt_word _ (by show 2 * (j 1).val + (j 2).val < 4096; omega)]
    show min (Int.toNat ((2 * (j 1).val + (j 2).val : ℕ) : ℤ)) (4096 - 1) + 0 + 0 = _
    rw [Int.toNat_natCast]
    omega

/-- The gathered windows, flattened: at `(b, q)` the input at `(b, col q)`, which is where update `(b, q)` of the
    summing scatter lands. -/
theorem gathered_flat (x0 : S8192x4096.Idx → Elt F .f32) (j : S8192x28588.Idx) :
    val_main_v20 (F := F) x0 j = x0 (landSum j) := by
  have h0 := idx2_lt0 j
  have h1 := idx2_lt1 j
  rw [val_main_v20_apply, gather_apply]
  congr 1
  funext a; refine Fin.ext ?_
  match a with
  | ⟨0, _⟩ => show ((j 0).val * 28588 + (j 1).val) / 28588 = (j 0).val; omega
  | ⟨1, _⟩ =>
    show 2 * (((j 0).val * 28588 + (j 1).val) / 14 % 2042) + ((j 0).val * 28588 + (j 1).val) % 14 = col (j 1).val
    unfold col; omega

end Cert.ReferenceIdeal.Windows

end
-- ==== Proof.Averaging.lean ====
/-
  The arithmetic that joins the two sides. A sum of `n` copies of a real number `r`, divided by a sum of `n` ones,
  is `r` as soon as `n ≥ 1`: on the extended reals both sums are the reals `n r` and `n`, and the quotient by the
  non-zero real `n` is the product with `1 / n`.
-/
import Idealize.ShloMosaic.PureOps.Ideal

noncomputable section

open scoped BigOperators

namespace Cert.Averaging

open Idealize.ShloMosaic

/-- `n` copies of a real, added on the extended reals, are the real `n r`. -/
theorem nsmul_coe (n : ℕ) (r : ℝ) : n • (r : EReal) = (((n : ℝ) * r : ℝ) : EReal) := by
  induction n with
  | zero => simp
  | succ n ih =>
    rw [succ_nsmul, ih, ← EReal.coe_add]
    congr 1
    push_cast
    ring

/-- The sum of `n` copies of a real `r` over the sum of as many ones is `r`, when there is at least one. -/
theorem mean_of_copies {ι κ : Type} (s : Finset ι) (t : Finset κ) (hcard : s.card = t.card) (hpos : 0 < t.card) (r : ℝ) :
    Ideal.div (0 + ∑ _k ∈ s, (r : EReal)) (0 + ∑ _k ∈ t, (1 : EReal)) = (r : EReal) := by
  have hne : ((t.card : ℝ)) ≠ 0 := by exact_mod_cast hpos.ne'
  rw [zero_add, zero_add, Finset.sum_const, Finset.sum_const, nsmul_coe, ← EReal.coe_one, nsmul_coe, hcard, mul_one,
    Ideal.div_coe hne, ← EReal.coe_mul]
  congr 1
  field_simp

end Cert.Averaging

end
-- ==== Proof.RefValue.lean ====
/-
  The reference is the identity on real inputs. At row `b` and column `d` the summing scatter adds, onto zero, one copy of
  the input entry `(b, d)` for every window position `q` whose column `col q` is `d` (the gathered value that lands there
  was read from that very entry), and the counting scatter adds, onto zero, a one for each of the same positions. The
  positions are the same set on both sides, and there is at least one of them because the windows (14 wide, stride 2,
  the last one ending at column 4095) leave no column out. So the quotient is (n · x) / n = x for a real x and n ≥ 1.
-/
import proofs.«421651_j72885595013444_3_alg».proof.Proof.RefLands
import proofs.«421651_j72885595013444_3_alg».proof.Proof.Averaging
import Idealize.ShloMosaic.PureOps.Ideal.Laws

noncomputable section

namespace Cert.ReferenceIdeal.Windows

open Cert.ReferenceIdeal Cert.ReferenceIdeal.Read Idealize.ShloMosaic Idealize.ShloMosaic.ValueIdx

/-- The pattern of `1.0` denotes the real one. -/
theorem ofBits_one : Ideal.ofBits .f32 0x3F800000#32 = 1 := by
  simp [Ideal.ofBits, Ideal.ieee, -EReal.coe_mul]; norm_num

/-- Update `(b, q)` lands on `(b', d)` iff `b = b'` and position `q` names column `d`. -/
theorem landSum_eq_iff (j : S8192x28588.Idx) (i : S8192x4096.Idx) :
    landSum j = i ↔ (j 0).val = (i 0).val ∧ col (j 1).val = (i 1).val := by
  constructor
  · intro h
    exact ⟨congrArg Fin.val (congrFun h 0), congrArg Fin.val (congrFun h 1)⟩
  · rintro ⟨h0, h1⟩
    funext a
    match a with
    | ⟨0, _⟩ => exact Fin.ext h0
    | ⟨1, _⟩ => exact Fin.ext h1

/-- Counting update `q` lands on `d` iff position `q` names column `d`. -/
theorem landCount_eq_iff (k : S28588.Idx) (d : S4096.Idx) : landCount k = d ↔ col (k 0).val = (d 0).val := by
  constructor
  · intro h
    exact congrArg Fin.val (congrFun h 0)
  · intro h
    funext a
    obtain rfl : a = 0 := Subsingleton.elim _ _
    exact Fin.ext h

/-- Every column lies in some window: `d = 2 s + e` with `s < 2042` and `e < 14` (the last window takes the tail). -/
theorem column_split (d : ℕ) (hd : d < 4096) : ∃ s e : ℕ, s < 2042 ∧ e < 14 ∧ 2 * s + e = d := by
  by_cases h : d < 4084
  · exact ⟨d / 2, d % 2, by omega, by omega, by omega⟩
  · exact ⟨2041, d - 4082, by omega, by omega, by omega⟩

/-- So every entry of the count is touched by at least one position. -/
theorem column_touched (d : S4096.Idx) : ∃ k : S28588.Idx, landCount k = d := by
  obtain ⟨s, e, hs, he, hd⟩ := column_split (d 0).val (d 0).isLt
  refine ⟨ix1 ⟨14 * s + e, by omega⟩, ?_⟩
  rw [landCount_eq_iff]
  show col (14 * s + e) = (d 0).val
  unfold col; omega

/-- The positions summed into `(b, d)` and the positions counted into `d` are as many: `(b, q) ↦ q` is a bijection. -/
theorem touches_card (i : S8192x4096.Idx) (s : Finset S8192x28588.Idx) (t : Finset S28588.Idx)
    (hs : ∀ j, j ∈ s ↔ landSum j = i)
    (ht : ∀ k, k ∈ t ↔ landCount k = ix1 (⟨(i 1).val, idx2_lt1 i⟩ : Fin 4096)) : s.card = t.card := by
  refine Finset.card_bij' (fun j _ => (ix1 (⟨(j 1).val, idx2_lt1 j⟩ : Fin 28588) : S28588.Idx))
    (fun k _ => (ix2 (⟨(i 0).val, idx2_lt0 i⟩ : Fin 8192) (⟨(k 0).val, (k 0).isLt⟩ : Fin 28588) : S8192x28588.Idx)) ?_ ?_ ?_ ?_
  · intro j hj
    refine (ht _).mpr ((landCount_eq_iff _ _).mpr ?_)
    exact ((landSum_eq_iff j i).mp ((hs j).mp hj)).2
  · intro k hk
    refine (hs _).mpr ((landSum_eq_iff _ _).mpr ⟨rfl, ?_⟩)
    exact (landCount_eq_iff k _).mp ((ht k).mp hk)
  · intro j hj
    have h0 := ((landSum_eq_iff j i).mp ((hs j).mp hj)).1
    funext a
    match a with
    | ⟨0, _⟩ => exact Fin.ext h0.symm
    | ⟨1, _⟩ => rfl
  · intro k hk
    funext a
    obtain rfl : a = 0 := Subsingleton.elim _ _
    rfl

/-- THE REFERENCE AT AN ENTRY that is a real number: the entry itself. -/
theorem reference_entry (x0 : FVec Ideal S8192x4096 .f32) (i : S8192x4096.Idx) (r : ℝ) (hr : (x0 i : EReal) = (r : EReal)) :
    val_main_v39 (F := Ideal) x0 i = x0 i := by
  rw [val_main_v39_apply, val_main_v38_apply, val_main_v37_apply]
  unfold val_main_v27 val_main_v36 Host.scatterAdd
  rw [Ideal.hostDivf_def, Ideal.hostScatterAdd_def, Ideal.hostScatterAdd_def]
  unfold Ideal.hostScatterAdd
  have hd : idx_main_v37 (idx_main_v38 i) = ix1 (⟨(i 1).val, idx2_lt1 i⟩ : Fin 4096) := by
    funext a
    obtain rfl : a = 0 := Subsingleton.elim _ _
    rfl
  have hsum : ∀ j, dS.resultIdx? j (val_main_v26 (F := Ideal)) = some i → val_main_v20 (F := Ideal) x0 j = (r : EReal) := by
    intro j hj
    rw [sum_lands] at hj
    rw [gathered_flat, Option.some_inj.mp hj, hr]
  have hone : ∀ k, val_main_v35 (F := Ideal) k = (1 : EReal) := by
    intro k
    rw [val_main_v35_apply, val_main_cst_8_apply]
    exact ofBits_one
  rw [hd, val_main_v19_apply, val_main_cst_apply, val_main_v28_apply, val_main_cst_5_apply, Ideal.ofBits_def,
    Ideal.ofBits_zero_f32, Finset.sum_congr rfl (fun j hj => hsum j (Finset.mem_filter.mp hj).2),
    Finset.sum_congr rfl (fun k _ => hone k), hr]
  refine Cert.Averaging.mean_of_copies _ _ (touches_card i _ _ ?_ ?_) ?_ r
  · intro j
    rw [Finset.mem_filter, sum_lands]
    simp only [Finset.mem_univ, true_and, Option.some_inj]
  · intro k
    rw [Finset.mem_filter, count_lands]
    simp only [Finset.mem_univ, true_and, Option.some_inj]
  · rw [Finset.card_pos]
    obtain ⟨k, hk⟩ := column_touched (ix1 (⟨(i 1).val, idx2_lt1 i⟩ : Fin 4096))
    exact ⟨k, by rw [Finset.mem_filter, count_lands, hk]; exact ⟨Finset.mem_univ _, rfl⟩⟩

end Cert.ReferenceIdeal.Windows

end
-- ==== Proof.Finite.lean ====
/-
  The precondition, read back. "Every input is finite" is printed as `all (|x| < +inf)`; when it holds, every entry of
  the input is neither infinity, hence a real number.
-/
import proofs.«421651_j72885595013444_3_alg».proof.Proof.Gen.Pre_finite_inputs
import Idealize.ShloMosaic.Lib.ReduceAll
import Idealize.ShloMosaic.PureOps.Ideal

noncomputable section

namespace Cert.Pre_finite_inputs.Finite

open Idealize.ShloMosaic Cert.Pre_finite_inputs Cert.Pre_finite_inputs.Gen

instance : Subsingleton S_.Idx := ⟨fun a b => funext fun d => d.elim0⟩

/-- The pattern of `+inf` denotes the top of the extended reals. -/
theorem ofBits_inf : Ideal.ofBits .f32 0x7F800000#32 = ⊤ := by simp [Ideal.ofBits, Ideal.ieee]

/-- Under the precondition every entry of the input is a real number. -/
theorem entry_real (x : FVec Ideal S8192x4096 .f32) (h : fn (F := Ideal) x = fun _ => 1#1) (i : S8192x4096.Idx) :
    ∃ r : ℝ, (x i : EReal) = (r : EReal) := by
  have h0 := congrFun h (fun a => a.elim0)
  dsimp only [fn] at h0
  have hi := Host.reduce_andi_all _ _ _ _ _ h0 i
  have hc : Ideal.cmp .olt (max (x i : EReal) (-(x i : EReal))) (Ideal.ofBits .f32 0x7F800000#32) = 1#1 := hi
  rw [ofBits_inf] at hc
  have hlt : (x i : EReal) < ⊤ ∧ -(x i : EReal) < ⊤ := by
    unfold Ideal.cmp at hc
    have hb : ∀ b : Bool, BitVec.ofBool b = 1#1 → b = true := by intro b; cases b <;> decide
    have hd := hb _ hc
    simpa using hd
  have h1 : (x i : EReal) ≠ ⊤ := ne_of_lt hlt.1
  have h2 : (x i : EReal) ≠ ⊥ := by
    intro hh
    rw [hh] at hlt
    simp at hlt
  exact ⟨(x i : EReal).toReal, (EReal.coe_toReal h1 h2).symm⟩

end Cert.Pre_finite_inputs.Finite

end
-- ==== Proof.lean ====
/-
  The certificate of an identity-copy kernel against a gather / scatter-add / average reference, over f32[8192, 4096].

  The kernel copies its input, sixteen bands of 512 rows, into a fresh output (Proof/KernelCopy.lean, over the generated
  blockwise value leg). The reference cuts each row into 2042 overlapping windows of 14 columns at stride 2, gathers
  them, scatter-adds them back onto zero, and divides each column by the number of windows that touch it. Every gathered
  value returns to the column it was read from (Proof/RefLands.lean, over Proof/RefIndex.lean's reading of the window
  table), so at Ideal the reference computes (n · x) / n with n ≥ 1 the number of windows touching the column, which is
  x when x is a real number (Proof/RefValue.lean, Proof/Averaging.lean). The precondition makes every entry real
  (Proof/Finite.lean). The three frames are the generated ones (the reference's is its generated run with the result
  dropped), and the ideal pass rewrote nothing, so the idealization conjunct is trivial.
-/
import proofs.«421651_j72885595013444_3_alg».proof.Defs
import proofs.«421651_j72885595013444_3_alg».proof.Proof.Gen.Kernel
import proofs.«421651_j72885595013444_3_alg».proof.Proof.Gen.Kernel.Skeleton
import proofs.«421651_j72885595013444_3_alg».proof.Proof.Gen.Kernel.Launch
import proofs.«421651_j72885595013444_3_alg».proof.Proof.Gen.Kernel.Points
import proofs.«421651_j72885595013444_3_alg».proof.Proof.Gen.Kernel.Frame
import proofs.«421651_j72885595013444_3_alg».proof.Proof.Gen.KernelIdeal
import proofs.«421651_j72885595013444_3_alg».proof.Proof.Gen.KernelIdeal.Skeleton
import proofs.«421651_j72885595013444_3_alg».proof.Proof.Gen.KernelIdeal.Launch
import proofs.«421651_j72885595013444_3_alg».proof.Proof.Gen.KernelIdeal.Points
import proofs.«421651_j72885595013444_3_alg».proof.Proof.Gen.KernelIdeal.Frame
import proofs.«421651_j72885595013444_3_alg».proof.Proof.Gen.ReferenceIdeal
import proofs.«421651_j72885595013444_3_alg».proof.Proof.Gen.Pre_finite_inputs
import proofs.«421651_j72885595013444_3_alg».proof.Proof.Gen.KernelIdeal.Value
import proofs.«421651_j72885595013444_3_alg».proof.Proof.Gen.ReferenceIdeal.Run
import proofs.«421651_j72885595013444_3_alg».proof.Proof.Gen.ReferenceIdeal.Read
import proofs.«421651_j72885595013444_3_alg».proof.Proof.KernelCopy
import proofs.«421651_j72885595013444_3_alg».proof.Proof.RefValue
import proofs.«421651_j72885595013444_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its argument as it was: the generated frame. -/
theorem frame_kernel : Cert.frame_Kernel := fun m ρ _ => Cert.Kernel.Gen.frame m ρ

/-- So does the kernel read at Ideal. -/
theorem frame_kernel_ideal : Cert.frame_KernelIdeal := fun m ρ _ => Cert.KernelIdeal.Gen.frame m ρ

/-- The reference runs and leaves its argument as it was: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs the kernel's copy and the reference's gather / scatter-add / average end with the same array: the
    input itself. -/
theorem algebraic : Cert.algebraic_KernelIdeal_ReferenceIdeal := by
  intro m ρ m' ρ' hpre hagree
  refine ⟨fun c => Cert.KernelIdeal.CopyValue.xarr m c, Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, hagree c]
  funext i
  obtain ⟨r, hr⟩ := Cert.Pre_finite_inputs.Finite.entry_real _ (hpre c) i
  exact Cert.ReferenceIdeal.Windows.reference_entry _ i r hr

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
